-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x26 : Shape := ⟨2, ![32, 26]⟩
abbrev S26 : Shape := ⟨1, ![26]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x26 : S_.BroadcastsInDim S32x26 (![] : Fin 0 → Fin S32x26.rank)
  reducesTo_S32x26_S_d0_1 : S32x26.ReducesTo [0, 1] S_
  bcast_S_S26 : S_.BroadcastsInDim S26 (![] : Fin 0 → Fin S26.rank)
  reducesTo_S26_S_d0 : S26.ReducesTo [0] S_

variable [Facts]

def fn_part4 {F : FTy → Type} [FloatOps F] (main_arg16 : FVec F S32x26 .f32) (main_arg17 : FVec F S26 .f32) (main_v63 : IVec S_ 1) (main_v67 : IVec S_ 1) : IVec S_ 1 :=
  let main_v68 : IVec S_ 1 := andi main_v63 main_v67
  let main_v69 : FVec F S32x26 .f32 := Host.absf main_arg16
  let main_cst_26 : FVec F S_ .f32 := constant S_ .f32 0x7F800000#32
  let main_v70 : FVec F S32x26 .f32 := broadcastInDim S32x26 ![] bcast_S_S32x26 main_cst_26
  let main_v71 : IVec S32x26 1 := cmpf .olt main_v69 main_v70
  let main_c_27 : IVec S_ 1 := constantI S_ 1 1#1
  let main_v72 : IVec S_ 1 := (fun x v => Host.reduce IntOp.andi x v reducesTo_S32x26_S_d0_1 h_S_) main_v71 main_c_27
  let main_v73 : IVec S_ 1 := andi main_v68 main_v72
  let main_v74 : FVec F S26 .f32 := Host.absf main_arg17
  let main_cst_28 : FVec F S_ .f32 := constant S_ .f32 0x7F800000#32
  let main_v75 : FVec F S26 .f32 := broadcastInDim S26 ![] bcast_S_S26 main_cst_28
  let main_v76 : IVec S26 1 := cmpf .olt main_v74 main_v75
  let main_c_29 : IVec S_ 1 := constantI S_ 1 1#1
  let main_v77 : IVec S_ 1 := (fun x v => Host.reduce IntOp.andi x v reducesTo_S26_S_d0 h_S_) main_v76 main_c_29
  let main_v78 : IVec S_ 1 := andi main_v73 main_v77
  main_v78

def fn_part3 {F : FTy → Type} [FloatOps F] (main_arg13 : FVec F S64 .f32) (main_arg14 : FVec F S64x32 .f32) (main_arg15 : FVec F S32 .f32) (main_arg16 : FVec F S32x26 .f32) (main_arg17 : FVec F S26 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_v63 main_v67

def fn_part2 {F : FTy → Type} [FloatOps F] (main_arg9 : FVec F S128 .f32) (main_arg10 : FVec F S256x128 .f32) (main_arg11 : FVec F S128 .f32) (main_arg12 : FVec F S128x64 .f32) (main_arg13 : FVec F S64 .f32) (main_arg14 : FVec F S64x32 .f32) (main_arg15 : FVec F S32 .f32) (main_arg16 : FVec F S32x26 .f32) (main_arg17 : FVec F S26 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_arg14 main_arg15 main_arg16 main_arg17 main_v48 main_v49 main_v50

def fn_part1 {F : FTy → Type} [FloatOps F] (main_arg6 : FVec F S256x128 .f32) (main_arg7 : FVec F S128 .f32) (main_arg8 : FVec F S256x128 .f32) (main_arg9 : FVec F S128 .f32) (main_arg10 : FVec F S256x128 .f32) (main_arg11 : FVec F S128 .f32) (main_arg12 : FVec F S128x64 .f32) (main_arg13 : FVec F S64 .f32) (main_arg14 : FVec F S64x32 .f32) (main_arg15 : FVec F S32 .f32) (main_arg16 : FVec F S32x26 .f32) (main_arg17 : FVec F S26 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x128 .f32) (main_arg1 : FVec F S100000x128 .f32) (main_arg2 : IVec S800000 32) (main_arg3 : IVec S800000 32) (main_arg4 : FVec F S256x128 .f32) (main_arg5 : FVec F S128 .f32) (main_arg6 : FVec F S256x128 .f32) (main_arg7 : FVec F S128 .f32) (main_arg8 : FVec F S256x128 .f32) (main_arg9 : FVec F S128 .f32) (main_arg10 : FVec F S256x128 .f32) (main_arg11 : FVec F S128 .f32) (main_arg12 : FVec F S128x64 .f32) (main_arg13 : FVec F S64 .f32) (main_arg14 : FVec F S64x32 .f32) (main_arg15 : FVec F S32 .f32) (main_arg16 : FVec F S32x26 .f32) (main_arg17 : FVec F S26 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x26 : Shape := ⟨2, ![32, 26]⟩
abbrev S26 : Shape := ⟨1, ![26]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S800000x26 : Shape := ⟨2, ![800000, 26]⟩
abbrev S3200x256 : Shape := ⟨2, ![3200, 256]⟩
abbrev S3200x26 : Shape := ⟨2, ![3200, 26]⟩
abbrev S3200x128 : Shape := ⟨2, ![3200, 128]⟩
abbrev S1x128 : Shape := ⟨2, ![1, 128]⟩
abbrev S3200 : Shape := ⟨1, ![3200]⟩
abbrev S3200x1 : Shape := ⟨2, ![3200, 1]⟩
abbrev S3200x64 : Shape := ⟨2, ![3200, 64]⟩
abbrev S1x64 : Shape := ⟨2, ![1, 64]⟩
abbrev S3200x32 : Shape := ⟨2, ![3200, 32]⟩
abbrev S1x32 : Shape := ⟨2, ![1, 32]⟩
abbrev S1x26 : Shape := ⟨2, ![1, 26]⟩

abbrev nBuf : Space → Nat
  | .hbm => 64
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S800000, .i32⟩
  | .hbm, ⟨3, _⟩ => ⟨S800000, .i32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32x26, .f32⟩
  | .hbm, ⟨17, _⟩ => ⟨S26, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x256, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x256, .f32⟩
  | .hbm, ⟨56, _⟩ => ⟨S256x128, .bf16⟩
  | .hbm, ⟨57, _⟩ => ⟨S256x128, .bf16⟩
  | .hbm, ⟨58, _⟩ => ⟨S256x128, .bf16⟩
  | .hbm, ⟨59, _⟩ => ⟨S256x128, .bf16⟩
  | .hbm, ⟨60, _⟩ => ⟨S128x64, .bf16⟩
  | .hbm, ⟨61, _⟩ => ⟨S64x32, .bf16⟩
  | .hbm, ⟨62, _⟩ => ⟨S32x26, .bf16⟩
  | .hbm, ⟨63, _⟩ => ⟨S800000x26, .f32⟩
  | .local _ .vmem, ⟨0, _⟩ => ⟨S3200x256, .f32⟩
  | .local _ .vmem, ⟨1, _⟩ => ⟨S3200x256, .f32⟩
  | .local _ .vmem, ⟨2, _⟩ => ⟨S3200x256, .f32⟩
  | .local _ .vmem, ⟨3, _⟩ => ⟨S3200x256, .f32⟩
  | .local _ .vmem, ⟨4, _⟩ => ⟨S256x128, .bf16⟩
  | .local _ .vmem, ⟨5, _⟩ => ⟨S128, .f32⟩
  | .local _ .vmem, ⟨6, _⟩ => ⟨S256x128, .bf16⟩
  | .local _ .vmem, ⟨7, _⟩ => ⟨S128, .f32⟩
  | .local _ .vmem, ⟨8, _⟩ => ⟨S256x128, .bf16⟩
  | .local _ .vmem, ⟨9, _⟩ => ⟨S128, .f32⟩
  | .local _ .vmem, ⟨10, _⟩ => ⟨S256x128, .bf16⟩
  | .local _ .vmem, ⟨11, _⟩ => ⟨S128, .f32⟩
  | .local _ .vmem, ⟨12, _⟩ => ⟨S128x64, .bf16⟩
  | .local _ .vmem, ⟨13, _⟩ => ⟨S64, .f32⟩
  | .local _ .vmem, ⟨14, _⟩ => ⟨S64x32, .bf16⟩
  | .local _ .vmem, ⟨15, _⟩ => ⟨S32, .f32⟩
  | .local _ .vmem, ⟨16, _⟩ => ⟨S32x26, .bf16⟩
  | .local _ .vmem, ⟨17, _⟩ => ⟨S26, .f32⟩
  | .local _ .vmem, ⟨18, _⟩ => ⟨S3200x26, .f32⟩
  | .local _ .vmem, ⟨19, _⟩ => ⟨S3200x26, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x26 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S26 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S3200x26 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bitsLt_bf16_f32 : FTy.bits .bf16 < FTy.bits .f32
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  reduces_S3200x128_S3200 : S3200x128.Reduces [1] S3200
  shapeCasts_S3200_S3200x1 : S3200.ShapeCasts S3200x1
  broadcasts_S3200x1_S3200x128 : S3200x1.Broadcasts S3200x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S3200x64 : S1x64.Broadcasts S3200x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S3200x32 : S1x32.Broadcasts S3200x32
  inb_S32x26_S32x26_0_0 : ∀ a, (![0, 0] : Fin 2 → Nat) a + S32x26.size a ≤ S32x26.size a
  h_S32x26 : 0 < S32x26.numel
  shapeCasts_S32x26_S32x26 : S32x26.ShapeCasts S32x26
  inb_S26_S26_0 : ∀ a, (![0] : Fin 1 → Nat) a + S26.size a ≤ S26.size a
  h_S26 : 0 < S26.numel
  shapeCasts_S26_S1x26 : S26.ShapeCasts S1x26
  broadcasts_S1x26_S3200x26 : S1x26.Broadcasts S3200x26
  inb_S3200x26_S3200x26_0_0 : ∀ a, (![0, 0] : Fin 2 → Nat) a + S3200x26.size a ≤ S3200x26.size a
  h_S3200x26 : 0 < S3200x26.numel
  gather_S100000x128_S800000x1_S800000x128_1_0_n_n_0_1_1128_wf : GatherDims.WF S100000x128 S800000x1 S800000x128 [1] [0] [] [0] [] 1 ![1, 128]
  dot_S3200x256_S256x128_S3200x128_1_0_0_1_n_n_wf : DotDims.WF S3200x256 S256x128 S3200x128 [1] [0] [0] [1] [] []
  dot_S3200x128_S128x64_S3200x64_1_0_0_1_n_n_wf : DotDims.WF S3200x128 S128x64 S3200x64 [1] [0] [0] [1] [] []
  dot_S3200x64_S64x32_S3200x32_1_0_0_1_n_n_wf : DotDims.WF S3200x64 S64x32 S3200x32 [1] [0] [0] [1] [] []
  dot_S3200x32_S32x26_S3200x26_1_0_0_1_n_n_wf : DotDims.WF S3200x32 S32x26 S3200x26 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x256.size a ≤ S800000x256.size a
  hwx0_0 : ∀ i : grid0.Coords, EltTy.bits .f32 = 32 ∨ (Rect.block (s := S800000x256) S3200x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x256.size a ≤ S800000x256.size a
  hwx0_1 : ∀ i : grid0.Coords, EltTy.bits .f32 = 32 ∨ (Rect.block (s := S800000x256) S3200x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .bf16 = 32 ∨ (Rect.block (s := S128x64) S128x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x32.size a ≤ S64x32.size a
  hwx0_12 : ∀ i : grid0.Coords, EltTy.bits .bf16 = 32 ∨ (Rect.block (s := S64x32) S64x32.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32.size a ≤ S32.size a
  hwx0_13 : ∀ i : grid0.Coords, EltTy.bits .f32 = 32 ∨ (Rect.block (s := S32) S32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x26.size a ≤ S32x26.size a
  hwx0_14 : ∀ i : grid0.Coords, EltTy.bits .bf16 = 32 ∨ (Rect.block (s := S32x26) S32x26.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S26.size a ≤ S26.size a
  hwx0_15 : ∀ i : grid0.Coords, EltTy.bits .f32 = 32 ∨ (Rect.block (s := S26) S26.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S3200x26.size a ≤ S800000x26.size a
  hwx0_16 : ∀ i : grid0.Coords, EltTy.bits .f32 = 32 ∨ (Rect.block (s := S800000x26) S3200x26.size (cc0_transform_16 i) (hinb0_16 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def dot_S3200x64_S64x32_S3200x32_1_0_0_1_n_n : DotDims S3200x64 S64x32 S3200x32 where
  lhsContracting := [1]
  rhsContracting := [0]
  lhsNonContracting := [0]
  rhsNonContracting := [1]
  lhsBatch := []
  rhsBatch := []
  wf := dot_S3200x64_S64x32_S3200x32_1_0_0_1_n_n_wf
def dot_S3200x32_S32x26_S3200x26_1_0_0_1_n_n : DotDims S3200x32 S32x26 S3200x26 where
  lhsContracting := [1]
  rhsContracting := [0]
  lhsNonContracting := [0]
  rhsNonContracting := [1]
  lhsBatch := []
  rhsBatch := []
  wf := dot_S3200x32_S32x26_S3200x26_1_0_0_1_n_n_wf

abbrev win0_0 : Pipeline.Window sig grid0 :=
  Pipeline.Window.ofSpec (Memref.whole main_v14) S3200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S3200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v35) S64x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v36) S32x26.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg17) S26.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v37) S3200x26.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x26 : Shape := ⟨2, ![32, 26]⟩
abbrev S26 : Shape := ⟨1, ![26]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S800000x64 : Shape := ⟨2, ![800000, 64]⟩
abbrev S1x64 : Shape := ⟨2, ![1, 64]⟩
abbrev S800000x32 : Shape := ⟨2, ![800000, 32]⟩
abbrev S1x32 : Shape := ⟨2, ![1, 32]⟩
abbrev S800000x26 : Shape := ⟨2, ![800000, 26]⟩
abbrev S1x26 : Shape := ⟨2, ![1, 26]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S800000, .i32⟩
  | .hbm, ⟨3, _⟩ => ⟨S800000, .i32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32x26, .f32⟩
  | .hbm, ⟨17, _⟩ => ⟨S26, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x256, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x256, .f32⟩
  | .hbm, ⟨56, _⟩ => ⟨S800000x128, .f32⟩
  | .hbm, ⟨57, _⟩ => ⟨S1x128, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S1x128, .f32⟩
  | .hbm, ⟨62, _⟩ => ⟨S800000x128, .f32⟩
  | .hbm, ⟨63, _⟩ => ⟨S800000x128, .f32⟩
  | .hbm, ⟨64, _⟩ => ⟨S800000x128, .f32⟩
  | .hbm, ⟨65, _⟩ => ⟨S1x128, .f32⟩
  | .hbm, ⟨66, _⟩ => ⟨S800000x128, .f32⟩
  | .hbm, ⟨67, _⟩ => ⟨S800000x128, .f32⟩
  | .hbm, ⟨68, _⟩ => ⟨S800000x128, .f32⟩
  | .hbm, ⟨69, _⟩ => ⟨S1x128, .f32⟩
  | .hbm, ⟨70, _⟩ => ⟨S800000x128, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S800000, .f32⟩
  | .hbm, ⟨75, _⟩ => ⟨S_, .f32⟩
  | .hbm, ⟨76, _⟩ => ⟨S800000, .f32⟩
  | .hbm, ⟨77, _⟩ => ⟨S800000, .f32⟩
  | .hbm, ⟨78, _⟩ => ⟨S800000x1, .f32⟩
  | .hbm, ⟨79, _⟩ => ⟨S800000x128, .f32⟩
  | .hbm, ⟨80, _⟩ => ⟨S800000x128, .f32⟩
  | .hbm, ⟨81, _⟩ => ⟨S800000x128, .f32⟩
  | .hbm, ⟨82, _⟩ => ⟨S_, .f32⟩
  | .hbm, ⟨83, _⟩ => ⟨S800000, .f32⟩
  | .hbm, ⟨84, _⟩ => ⟨S800000x1, .f32⟩
  | .hbm, ⟨85, _⟩ => ⟨S800000x128, .f32⟩
  | .hbm, ⟨86, _⟩ => ⟨S800000x128, .f32⟩
  | .hbm, ⟨87, _⟩ => ⟨S800000x128, .f32⟩
  | .hbm, ⟨88, _⟩ => ⟨S800000x128, .f32⟩
  | .hbm, ⟨89, _⟩ => ⟨S800000x64, .f32⟩
  | .hbm, ⟨90, _⟩ => ⟨S1x64, .f32⟩
  | .hbm, ⟨91, _⟩ => ⟨S800000x64, .f32⟩
  | .hbm, ⟨92, _⟩ => ⟨S800000x64, .f32⟩
  | .hbm, ⟨93, _⟩ => ⟨S_, .f32⟩
  | .hbm, ⟨94, _⟩ => ⟨S800000x64, .f32⟩
  | .hbm, ⟨95, _⟩ => ⟨S800000x64, .f32⟩
  | .hbm, ⟨96, _⟩ => ⟨S800000x32, .f32⟩
  | .hbm, ⟨97, _⟩ => ⟨S1x32, .f32⟩
  | .hbm, ⟨98, _⟩ => ⟨S800000x32, .f32⟩
  | .hbm, ⟨99, _⟩ => ⟨S800000x32, .f32⟩
  | .hbm, ⟨100, _⟩ => ⟨S800000x26, .f32⟩
  | .hbm, ⟨101, _⟩ => ⟨S1x26, .f32⟩
  | .hbm, ⟨102, _⟩ => ⟨S800000x26, .f32⟩
  | .hbm, ⟨103, _⟩ => ⟨S800000x26, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call0_cst : Ref sig .tc := ⟨.hbm, 93, rfl⟩
abbrev main_call0_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S800000_d1 : S800000x128.ReducesTo [1] S800000
  h_S_ : 0 < S_.numel
  bcast_S800000x1_S800000x128_0_1 : S800000x1.BroadcastsInDim S800000x128 (![0, 1] : Fin 2 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S26_S1x26_1 : S26.BroadcastsInDim S1x26 (![1] : Fin 1 → Fin S1x26.rank)
  bcast_S1x26_S800000x26_0_1 : S1x26.BroadcastsInDim S800000x26 (![0, 1] : Fin 2 → Fin S800000x26.rank)
  gather_S100000x128_S800000x1_S800000x128_1_0_n_n_0_1_1128_wf : GatherDims.WF S100000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  dot_S800000x64_S64x32_S800000x32_1_0_0_1_n_n_wf : DotDims.WF S800000x64 S64x32 S800000x32 [1] [0] [0] [1] [] []
  dot_S800000x32_S32x26_S800000x26_1_0_0_1_n_n_wf : DotDims.WF S800000x32 S32x26 S800000x26 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def dot_S800000x32_S32x26_S800000x26_1_0_0_1_n_n : DotDims S800000x32 S32x26 S800000x26 where
  lhsContracting := [1]
  rhsContracting := [0]
  lhsNonContracting := [0]
  rhsNonContracting := [1]
  lhsBatch := []
  rhsBatch := []
  wf := dot_S800000x32_S32x26_S800000x26_1_0_0_1_n_n_wf

class Facts : Prop extends Facts₀ where

variable [Facts]
-- ==== Proof.EdgeSpec.lean ====
/-
  The edge classifier as a function of ONE edge's two feature rows, on the extended reals.

  An edge carries a geometric row `g` and a descriptor row `d` (256 entries each: the two endpoint rows side by side).
  Four affine maps give `origin = g·We + be`, `query = g·Wq + bq`, `key = d·Wk + bk`, `value = d·Wv + bv` (128 entries
  each); the attention weights are the softmax over the 128 features of `query ⊙ key`, taken the numerically stable
  way (the row's maximum, itself joined with -∞, is subtracted before the exponential); the fused row is
  `value ⊙ alpha + origin`; and three more affine maps, the first followed by `max(·, 0)`, take it to 64, 32 and 26
  entries. Nothing here depends on any other edge: the result array's row `r` is this function of rows `r` of the two
  gathered arrays. No law of arithmetic is used anywhere below: every sum keeps its order, so no entry has to be finite.
-/
import Idealize.ShloMosaic.PureOps.Ideal
import Idealize.ShloMosaic.Lib.ValueIdx

noncomputable section

namespace Cert.EdgeMlp

open Idealize.ShloMosaic Idealize.ShloMosaic.ValueIdx

/-- The word of -∞ (the max-reduction's start) and the word of 0 (the rectifier's floor), kept as words. -/
abbrev negInf : EReal := Ideal.ofBits .f32 0xFF800000#32
abbrev zeroW : EReal := Ideal.ofBits .f32 0x00000000#32

/-- One affine map: entry `n` of `x·W + b`, the sum over the `K` entries of the row in their order. -/
def affine {K N : ℕ} (x : Fin K → EReal) (W : (⟨2, ![K, N]⟩ : Shape).Idx → EReal)
    (b : (⟨1, ![N]⟩ : Shape).Idx → EReal) (n : Fin N) : EReal :=
  (∑ k : Fin K, x k * W (ix2 k n)) + b (ix1 n)

/-- The maximum a stable softmax subtracts: the fold of `max` from -∞ over the row, joined once more with -∞. -/
def rowMax {N : ℕ} (s : Fin N → EReal) : EReal :=
  max negInf ((Finset.univ : Finset (Fin N)).fold max negInf s)

/-- The softmax of a row, entry `n`: `exp (s n - max) / ∑ k, exp (s k - max)`. -/
def softmaxRow {N : ℕ} (s : Fin N → EReal) (n : Fin N) : EReal :=
  Ideal.div (Ideal.exp (s n - rowMax s)) (∑ k : Fin N, Ideal.exp (s k - rowMax s))

section Row

variable (g d : Fin 256 → EReal)
variable (We : (⟨2, ![256, 128]⟩ : Shape).Idx → EReal) (be : (⟨1, ![128]⟩ : Shape).Idx → EReal)
variable (Wq : (⟨2, ![256, 128]⟩ : Shape).Idx → EReal) (bq : (⟨1, ![128]⟩ : Shape).Idx → EReal)
variable (Wk : (⟨2, ![256, 128]⟩ : Shape).Idx → EReal) (bk : (⟨1, ![128]⟩ : Shape).Idx → EReal)
variable (Wv : (⟨2, ![256, 128]⟩ : Shape).Idx → EReal) (bv : (⟨1, ![128]⟩ : Shape).Idx → EReal)
variable (Wc1 : (⟨2, ![128, 64]⟩ : Shape).Idx → EReal) (bc1 : (⟨1, ![64]⟩ : Shape).Idx → EReal)
variable (Wc2 : (⟨2, ![64, 32]⟩ : Shape).Idx → EReal) (bc2 : (⟨1, ![32]⟩ : Shape).Idx → EReal)
variable (Wc3 : (⟨2, ![32, 26]⟩ : Shape).Idx → EReal) (bc3 : (⟨1, ![26]⟩ : Shape).Idx → EReal)

/-- `query ⊙ key`: the scores the softmax runs over. -/
def scores (n : Fin 128) : EReal := affine g Wq bq n * affine d Wk bk n

/-- `value ⊙ softmax(scores) + origin`. -/
def fused (n : Fin 128) : EReal :=
  affine d Wv bv n * softmaxRow (scores g d Wq bq Wk bk) n + affine g We be n

/-- The first classifier layer, rectified. -/
def hidden1 (j : Fin 64) : EReal :=
  max (affine (fused g d We be Wq bq Wk bk Wv bv) Wc1 bc1 j) zeroW

/-- The second classifier layer (no rectifier). -/
def hidden2 (j : Fin 32) : EReal :=
  affine (hidden1 g d We be Wq bq Wk bk Wv bv Wc1 bc1) Wc2 bc2 j

/-- The class scores of one edge. -/
def edgeRow (j : Fin 26) : EReal :=
  affine (hidden2 g d We be Wq bq Wk bk Wv bv Wc1 bc1 Wc2 bc2) Wc3 bc3 j

end Row

/-- The whole result: row `r` is `edgeRow` of rows `r` of the two gathered arrays. Generic in the number of rows, so
    that one definition serves the full array and a block of it. -/
def edgeOut {R : ℕ} (geo ngeo : (⟨2, ![R, 256]⟩ : Shape).Idx → EReal)
    (We : (⟨2, ![256, 128]⟩ : Shape).Idx → EReal) (be : (⟨1, ![128]⟩ : Shape).Idx → EReal)
    (Wq : (⟨2, ![256, 128]⟩ : Shape).Idx → EReal) (bq : (⟨1, ![128]⟩ : Shape).Idx → EReal)
    (Wk : (⟨2, ![256, 128]⟩ : Shape).Idx → EReal) (bk : (⟨1, ![128]⟩ : Shape).Idx → EReal)
    (Wv : (⟨2, ![256, 128]⟩ : Shape).Idx → EReal) (bv : (⟨1, ![128]⟩ : Shape).Idx → EReal)
    (Wc1 : (⟨2, ![128, 64]⟩ : Shape).Idx → EReal) (bc1 : (⟨1, ![64]⟩ : Shape).Idx → EReal)
    (Wc2 : (⟨2, ![64, 32]⟩ : Shape).Idx → EReal) (bc2 : (⟨1, ![32]⟩ : Shape).Idx → EReal)
    (Wc3 : (⟨2, ![32, 26]⟩ : Shape).Idx → EReal) (bc3 : (⟨1, ![26]⟩ : Shape).Idx → EReal) :
    (⟨2, ![R, 26]⟩ : Shape).Idx → EReal :=
  fun i => edgeRow (fun k => geo (ix2 (i 0) k)) (fun k => ngeo (ix2 (i 0) k))
    We be Wq bq Wk bk Wv bv Wc1 bc1 Wc2 bc2 Wc3 bc3 (i 1)

end Cert.EdgeMlp

end
-- ==== Proof.RefRow.lean ====
/-
  The reference, row by row. Every operation after the two gathered arrays is local to an edge: an affine map reads
  one row of its operand, the softmax's maximum and sum run along a row, the rectifier is pointwise. So entry `(r, q)`
  of the reference's result is `edgeRow` of rows `r` of the gathered arrays — proved here one layer at a time, each
  layer read at an index through the generated one-operation lemmas (a product as the sum over the contracted
  coordinate, a broadcast as its operand at the kept coordinates); the row maximum, which those lemmas do not read,
  is the fold of `max` over the row's coordinates. The host's sum starts from the word of zero, which adds nothing.
-/
import proofs.«102872_j33741263077663_1_alg».proof.Proof.Gen.ReferenceIdeal.Read
import proofs.«102872_j33741263077663_1_alg».proof.Proof.EdgeSpec

noncomputable section

namespace Cert.EdgeMlp.Ref

open Cert.ReferenceIdeal Cert.ReferenceIdeal.Gen Cert.ReferenceIdeal.Read Cert.EdgeMlp Idealize.ShloMosaic Idealize.ShloMosaic.ValueIdx

variable (x0 x1 : (⟨S100000x128, .f32⟩ : BufTy).Contents (Elt Ideal)) (x2 x3 : (⟨S800000, .i32⟩ : BufTy).Contents (Elt Ideal))
  (x4 : (⟨S256x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S256x128, .f32⟩ : BufTy).Contents (Elt Ideal)) (x9 : (⟨S128, .f32⟩ : BufTy).Contents (Elt Ideal))
  (x10 : (⟨S256x128, .f32⟩ : BufTy).Contents (Elt Ideal)) (x11 : (⟨S128, .f32⟩ : BufTy).Contents (Elt Ideal))
  (x12 : (⟨S128x64, .f32⟩ : BufTy).Contents (Elt Ideal)) (x13 : (⟨S64, .f32⟩ : BufTy).Contents (Elt Ideal))
  (x14 : (⟨S64x32, .f32⟩ : BufTy).Contents (Elt Ideal)) (x15 : (⟨S32, .f32⟩ : BufTy).Contents (Elt Ideal))
  (x16 : (⟨S32x26, .f32⟩ : BufTy).Contents (Elt Ideal)) (x17 : (⟨S26, .f32⟩ : BufTy).Contents (Elt Ideal))

/-- Row `r` of the gathered node features (both endpoints side by side) and of the gathered descriptors. -/
abbrev geoRow (r : Fin 800000) : Fin 256 → EReal := fun k => val_main_v14 (F := Ideal) x0 x2 x3 (ix2 r k)
abbrev descRow (r : Fin 800000) : Fin 256 → EReal := fun k => val_main_v29 (F := Ideal) x1 x2 x3 (ix2 r k)

/-! ## The four projections -/

theorem origin_ref (r : Fin 800000) (n : Fin 128) :
    val_main_v33 (F := Ideal) x0 x2 x3 x4 x5 (ix2 r n) = affine (geoRow x0 x2 x3 r) x4 x5 n := by
  rw [val_main_v33_apply, val_main_v30_apply, val_main_v32_apply, val_main_v31_apply]
  have e1 : ∀ k, lidx_main_v30 (ix2 r n) k = ix2 r k := fun k => funext fun a => Fin.ext (by match a with | ⟨0, _⟩ => rfl | ⟨1, _⟩ => rfl)
  have e2 : ∀ k, ridx_main_v30 (ix2 r n) k = ix2 k n := fun k => funext fun a => Fin.ext (by match a with | ⟨0, _⟩ => rfl | ⟨1, _⟩ => rfl)
  have e3 : idx_main_v31 (idx_main_v32 (ix2 r n)) = ix1 n := funext fun a => Fin.ext (by match a with | ⟨0, _⟩ => rfl)
  simp only [e1, e2, e3, Ideal.addf_def, affine]

theorem query_ref (r : Fin 800000) (n : Fin 128) :
    val_main_v37 (F := Ideal) x0 x2 x3 x6 x7 (ix2 r n) = affine (geoRow x0 x2 x3 r) x6 x7 n := by
  rw [val_main_v37_apply, val_main_v34_apply, val_main_v36_apply, val_main_v35_apply]
  have e1 : ∀ k, lidx_main_v34 (ix2 r n) k = ix2 r k := fun k => funext fun a => Fin.ext (by match a with | ⟨0, _⟩ => rfl | ⟨1, _⟩ => rfl)
  have e2 : ∀ k, ridx_main_v34 (ix2 r n) k = ix2 k n := fun k => funext fun a => Fin.ext (by match a with | ⟨0, _⟩ => rfl | ⟨1, _⟩ => rfl)
  have e3 : idx_main_v35 (idx_main_v36 (ix2 r n)) = ix1 n := funext fun a => Fin.ext (by match a with | ⟨0, _⟩ => rfl)
  simp only [e1, e2, e3, Ideal.addf_def, affine]

theorem key_ref (r : Fin 800000) (n : Fin 128) :
    val_main_v41 (F := Ideal) x1 x2 x3 x8 x9 (ix2 r n) = affine (descRow x1 x2 x3 r) x8 x9 n := by
  rw [val_main_v41_apply, val_main_v38_apply, val_main_v40_apply, val_main_v39_apply]
  have e1 : ∀ k, lidx_main_v38 (ix2 r n) k = ix2 r k := fun k => funext fun a => Fin.ext (by match a with | ⟨0, _⟩ => rfl | ⟨1, _⟩ => rfl)
  have e2 : ∀ k, ridx_main_v38 (ix2 r n) k = ix2 k n := fun k => funext fun a => Fin.ext (by match a with | ⟨0, _⟩ => rfl | ⟨1, _⟩ => rfl)
  have e3 : idx_main_v39 (idx_main_v40 (ix2 r n)) = ix1 n := funext fun a => Fin.ext (by match a with | ⟨0, _⟩ => rfl)
  simp only [e1, e2, e3, Ideal.addf_def, affine]

theorem value_ref (r : Fin 800000) (n : Fin 128) :
    val_main_v45 (F := Ideal) x1 x2 x3 x10 x11 (ix2 r n) = affine (descRow x1 x2 x3 r) x10 x11 n := by
  rw [val_main_v45_apply, val_main_v42_apply, val_main_v44_apply, val_main_v43_apply]
  have e1 : ∀ k, lidx_main_v42 (ix2 r n) k = ix2 r k := fun k => funext fun a => Fin.ext (by match a with | ⟨0, _⟩ => rfl | ⟨1, _⟩ => rfl)
  have e2 : ∀ k, ridx_main_v42 (ix2 r n) k = ix2 k n := fun k => funext fun a => Fin.ext (by match a with | ⟨0, _⟩ => rfl | ⟨1, _⟩ => rfl)
  have e3 : idx_main_v43 (idx_main_v44 (ix2 r n)) = ix1 n := funext fun a => Fin.ext (by match a with | ⟨0, _⟩ => rfl)
  simp only [e1, e2, e3, Ideal.addf_def, affine]

/-! ## The softmax along a row -/

/-- The scores of row `r`. -/
abbrev sc (r : Fin 800000) : Fin 128 → EReal :=
  scores (geoRow x0 x2 x3 r) (descRow x1 x2 x3 r) x6 x7 x8 x9

theorem scores_ref (r : Fin 800000) (n : Fin 128) :
    val_main_v46 (F := Ideal) x0 x1 x2 x3 x6 x7 x8 x9 (ix2 r n) = sc x0 x1 x2 x3 x6 x7 x8 x9 r n := by
  rw [val_main_v46_apply, query_ref, key_ref]
  rfl

theorem rowmax_ref (r : Fin 800000) :
    val_main_v49 (F := Ideal) x0 x1 x2 x3 x6 x7 x8 x9 (ix1 r) = rowMax (sc x0 x1 x2 x3 x6 x7 x8 x9 r) := by
  have h : S800000x128.Reduces [1] S800000 := by decide
  rw [val_main_v49_apply, val_main_v48_apply, val_main_cst_7_apply]
  unfold val_main_v47
  rw [Host.reduce_eq_fold_single FloatOps.maximumf _ _ reducesTo_S800000x128_S800000_d1 h h_S_ (ix1 r)]
  show max negInf ((Finset.univ : Finset (Fin 128)).fold max negInf
    (fun k => val_main_v46 (F := Ideal) x0 x1 x2 x3 x6 x7 x8 x9 (h.lift (ix1 r) k))) = _
  unfold rowMax
  refine congrArg (max negInf) (congrArg ((Finset.univ : Finset (Fin 128)).fold max negInf) (funext fun k => ?_))
  have e : h.lift (ix1 r) k = ix2 r k := funext fun a => Fin.ext (by match a with | ⟨0, _⟩ => rfl | ⟨1, _⟩ => rfl)
  rw [e]
  exact scores_ref x0 x1 x2 x3 x6 x7 x8 x9 r k

theorem exp_ref (r : Fin 800000) (n : Fin 128) :
    val_main_v53 (F := Ideal) x0 x1 x2 x3 x6 x7 x8 x9 (ix2 r n)
      = Ideal.exp (sc x0 x1 x2 x3 x6 x7 x8 x9 r n - rowMax (sc x0 x1 x2 x3 x6 x7 x8 x9 r)) := by
  rw [val_main_v53_apply, val_main_v52_apply, val_main_v51_apply, val_main_v50_apply]
  have e : idx_main_v50 (idx_main_v51 (ix2 r n)) = ix1 r := funext fun a => Fin.ext (by match a with | ⟨0, _⟩ => rfl)
  rw [e, rowmax_ref, scores_ref]
  rfl

theorem sum_ref (r : Fin 800000) :
    val_main_v54 (F := Ideal) x0 x1 x2 x3 x6 x7 x8 x9 (ix1 r)
      = ∑ k : Fin 128, Ideal.exp (sc x0 x1 x2 x3 x6 x7 x8 x9 r k - rowMax (sc x0 x1 x2 x3 x6 x7 x8 x9 r)) := by
  rw [val_main_v54_apply, val_main_cst_8_apply]
  have e : ∀ k, idx_main_v54 (ix1 r) k = ix2 r k := fun k => funext fun a => Fin.ext (by match a with | ⟨0, _⟩ => rfl | ⟨1, _⟩ => rfl)
  simp only [e, exp_ref, Ideal.ofBits_def, Ideal.ofBits_zero_f32, zero_add]

theorem softmax_ref (r : Fin 800000) (n : Fin 128) :
    val_main_v57 (F := Ideal) x0 x1 x2 x3 x6 x7 x8 x9 (ix2 r n) = softmaxRow (sc x0 x1 x2 x3 x6 x7 x8 x9 r) n := by
  rw [val_main_v57_apply, val_main_v56_apply, val_main_v55_apply]
  have e : idx_main_v55 (idx_main_v56 (ix2 r n)) = ix1 r := funext fun a => Fin.ext (by match a with | ⟨0, _⟩ => rfl)
  rw [e, sum_ref, exp_ref]
  rfl

/-! ## The fused row and the classifier -/

theorem fused_ref (r : Fin 800000) (n : Fin 128) :
    val_main_v59 (F := Ideal) x0 x1 x2 x3 x4 x5 x6 x7 x8 x9 x10 x11 (ix2 r n)
      = fused (geoRow x0 x2 x3 r) (descRow x1 x2 x3 r) x4 x5 x6 x7 x8 x9 x10 x11 n := by
  rw [val_main_v59_apply, val_main_v58_apply, value_ref, softmax_ref, origin_ref]
  rfl

theorem hidden1_ref (r : Fin 800000) (j : Fin 64) :
    val_main_v64 (F := Ideal) x0 x1 x2 x3 x4 x5 x6 x7 x8 x9 x10 x11 x12 x13 (ix2 r j)
      = hidden1 (geoRow x0 x2 x3 r) (descRow x1 x2 x3 r) x4 x5 x6 x7 x8 x9 x10 x11 x12 x13 j := by
  rw [val_main_v64_apply, val_main_call0_v0_apply, val_main_call0_cst_apply,
    val_main_v63_apply, val_main_v60_apply, val_main_v62_apply, val_main_v61_apply]
  have e1 : ∀ k, lidx_main_v60 (ix2 r j) k = ix2 r k := fun k => funext fun a => Fin.ext (by match a with | ⟨0, _⟩ => rfl | ⟨1, _⟩ => rfl)
  have e2 : ∀ k, ridx_main_v60 (ix2 r j) k = ix2 k j := fun k => funext fun a => Fin.ext (by match a with | ⟨0, _⟩ => rfl | ⟨1, _⟩ => rfl)
  have e3 : idx_main_v61 (idx_main_v62 (ix2 r j)) = ix1 j := funext fun a => Fin.ext (by match a with | ⟨0, _⟩ => rfl)
  simp only [e1, e2, e3, fused_ref, Ideal.addf_def, Ideal.maximumf_def, Ideal.ofBits_def, hidden1, affine]

theorem hidden2_ref (r : Fin 800000) (j : Fin 32) :
    val_main_v68 (F := Ideal) x0 x1 x2 x3 x4 x5 x6 x7 x8 x9 x10 x11 x12 x13 x14 x15 (ix2 r j)
      = hidden2 (geoRow x0 x2 x3 r) (descRow x1 x2 x3 r) x4 x5 x6 x7 x8 x9 x10 x11 x12 x13 x14 x15 j := by
  rw [val_main_v68_apply, val_main_v65_apply, val_main_v67_apply, val_main_v66_apply]
  have e1 : ∀ k, lidx_main_v65 (ix2 r j) k = ix2 r k := fun k => funext fun a => Fin.ext (by match a with | ⟨0, _⟩ => rfl | ⟨1, _⟩ => rfl)
  have e2 : ∀ k, ridx_main_v65 (ix2 r j) k = ix2 k j := fun k => funext fun a => Fin.ext (by match a with | ⟨0, _⟩ => rfl | ⟨1, _⟩ => rfl)
  have e3 : idx_main_v66 (idx_main_v67 (ix2 r j)) = ix1 j := funext fun a => Fin.ext (by match a with | ⟨0, _⟩ => rfl)
  simp only [e1, e2, e3, hidden1_ref, Ideal.addf_def, hidden2, affine]

theorem out_ref (r : Fin 800000) (q : Fin 26) :
    val_main_v72 (F := Ideal) x0 x1 x2 x3 x4 x5 x6 x7 x8 x9 x10 x11 x12 x13 x14 x15 x16 x17 (ix2 r q)
      = edgeRow (geoRow x0 x2 x3 r) (descRow x1 x2 x3 r) x4 x5 x6 x7 x8 x9 x10 x11 x12 x13 x14 x15 x16 x17 q := by
  rw [val_main_v72_apply, val_main_v69_apply, val_main_v71_apply, val_main_v70_apply]
  have e1 : ∀ k, lidx_main_v69 (ix2 r q) k = ix2 r k := fun k => funext fun a => Fin.ext (by match a with | ⟨0, _⟩ => rfl | ⟨1, _⟩ => rfl)
  have e2 : ∀ k, ridx_main_v69 (ix2 r q) k = ix2 k q := fun k => funext fun a => Fin.ext (by match a with | ⟨0, _⟩ => rfl | ⟨1, _⟩ => rfl)
  have e3 : idx_main_v70 (idx_main_v71 (ix2 r q)) = ix1 q := funext fun a => Fin.ext (by match a with | ⟨0, _⟩ => rfl)
  simp only [e1, e2, e3, hidden2_ref, Ideal.addf_def, edgeRow, affine]

/-- The reference's result is `edgeOut` of the two gathered arrays and the weights. -/
theorem result_eq :
    val_main_v72 (F := Ideal) x0 x1 x2 x3 x4 x5 x6 x7 x8 x9 x10 x11 x12 x13 x14 x15 x16 x17
      = edgeOut (val_main_v14 (F := Ideal) x0 x2 x3) (val_main_v29 (F := Ideal) x1 x2 x3)
          x4 x5 x6 x7 x8 x9 x10 x11 x12 x13 x14 x15 x16 x17 := by
  funext i
  obtain ⟨r, q, rfl⟩ : ∃ (r : Fin 800000) (q : Fin 26), i = ix2 r q := ⟨i 0, i 1, eq_ix2 i⟩
  exact out_ref x0 x1 x2 x3 x4 x5 x6 x7 x8 x9 x10 x11 x12 x13 x14 x15 x16 x17 r q

end Cert.EdgeMlp.Ref

end
-- ==== Proof.LibRowSpread.lean ====
/-
  Two layout readings a row-wise kernel needs at an index given by coordinates, for any element type and any extents:

  * a vector of `a` entries cast to a COLUMN `[a, 1]` and the column broadcast over `b` lanes reads, at `(p, c)`,
    the vector at `p` (a per-row statistic — a row maximum, a row sum — spread back over the row);
  * a vector of `b` entries cast to a ROW `[1, b]` and the row broadcast over `a` rows reads, at `(p, c)`, the
    vector at `c` (a bias added to every row).

  Both are the row-major arithmetic of the two shapes: `p·1 + 0 = p` for the column, `0·b + c = c` for the row.
-/
import Idealize.ShloMosaic.Lib.ValueLayout

namespace Idealize.ShloMosaic.ValueIdx

open Idealize.ShloMosaic

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value spread over the row: `[a]` → `[a, 1]` → `[a, b]` read at `(p, c)` is the vector at `p`. -/
theorem column_spread_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) := by
  rw [broadcastTo_a1_ab_apply, shapeCast_a_a1_apply]

/-- A bias spread over the rows: `[b]` → `[1, b]` → `[a, b]` read at `(p, c)` is the vector at `c`. -/
theorem row_spread_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) := by
  rw [broadcastTo_1b_ab_apply, shapeCast_a_1a_apply]

end Idealize.ShloMosaic.ValueIdx
-- ==== Proof.LibMatmulRows.lean ====
/-
  A matrix product with ONE contracted axis — rows times columns, no batch axis — read at an entry given by
  coordinates, on the extended reals: entry `(p, n)` of `lhs · rhs` accumulated into zero is
  `∑ k, lhs (p, k) * rhs (k, n)`, the sum over the contracted coordinate in its own order.

  The dimension numbers say which axis of each operand is kept and which is contracted. When the left operand keeps
  its axis 0 and contracts its axis 1, and the right operand contracts its axis 0 and keeps its axis 1, the left index
  at result `(p, n)` and contraction coordinate `k` is `(p, k)` and the right index is `(k, n)`: the result's row sits
  first among the result's axes (no batch axes before it), and the right operand's kept axis comes right after it.
  A certificate instantiates the last theorem at its own record of dimension numbers, every hypothesis by `rfl`.
-/
import Idealize.ShloMosaic.Lib.ValueIdx
import Idealize.ShloMosaic.PureOps.Ideal.Laws

namespace Idealize.ShloMosaic.ValueIdx

open Idealize.ShloMosaic

/-- With no batch axis and the left operand's axis 0 its one kept axis, the left index's row is the result's row. -/
theorem lhsIdx_row {M K N : ℕ} (d : DotDims ⟨2, ![M, K]⟩ ⟨2, ![K, N]⟩ ⟨2, ![M, N]⟩)
    (hb : d.lhsBatch = []) (hn : d.lhsNonContracting = [0])
    (i : (⟨2, ![M, N]⟩ : Shape).Idx) (q : d.contr.Idx) : (d.lhsIdx i q 0).val = (i 0).val := by
  unfold DotDims.lhsIdx
  rw [dif_neg (by rw [hb]; exact List.not_mem_nil), dif_pos (by rw [hn]; exact List.mem_singleton.mpr rfl)]
  simp only [Fin.val_cast]
  have key : ∀ (a b : Nat) (ha : a < 2) (hb' : b < 2), a = b → (i ⟨a, ha⟩).val = (i ⟨b, hb'⟩).val :=
    fun a b ha hb' h => by subst h; rfl
  exact key _ _ _ _ (by simp [hb, hn])

/-- With no batch axis, one kept axis on the left, and the right operand's axis 1 its one kept axis, the right index's
    column is the result's column (the result's second axis). -/
theorem rhsIdx_col {M K N : ℕ} (d : DotDims ⟨2, ![M, K]⟩ ⟨2, ![K, N]⟩ ⟨2, ![M, N]⟩)
    (hlb : d.lhsBatch = []) (hln : d.lhsNonContracting = [0]) (hb : d.rhsBatch = []) (hn : d.rhsNonContracting = [1])
    (i : (⟨2, ![M, N]⟩ : Shape).Idx) (q : d.contr.Idx) : (d.rhsIdx i q 1).val = (i 1).val := by
  unfold DotDims.rhsIdx
  rw [dif_neg (by rw [hb]; exact List.not_mem_nil), dif_pos (by rw [hn]; exact List.mem_singleton.mpr rfl)]
  simp only [Fin.val_cast]
  have key : ∀ (a b : Nat) (ha : a < 2) (hb' : b < 2), a = b → (i ⟨a, ha⟩).val = (i ⟨b, hb'⟩).val :=
    fun a b ha hb' h => by subst h; rfl
  exact key _ _ _ _ (by simp [hlb, hln, hn])

/-- A `tpu.matmul` of an `[M, K]` by a `[K, N]` array into the zero accumulator, at `(p, n)`, from the four facts
    about where the operand indices take their coordinates. -/
theorem matmul_zero_rows_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (lhs : FVec Ideal ⟨2, ![M, K]⟩ φ₁) (rhs : FVec Ideal ⟨2, ![K, N]⟩ φ₂) (p : Fin M) (n : Fin N) :
    FloatOps.matmul d prec lhs rhs (constant ⟨2, ![M, N]⟩ .f32 0x00000000#32) (ix2 p n)
      = ∑ k : Fin K, lhs (ix2 p k) * rhs (ix2 k n) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k := funext fun a => Fin.ext (by
    match a with
    | ⟨0, _⟩ => exact hl0 _ _
    | ⟨1, _⟩ => exact (hl1 _ _).trans hk)
  have er : d.rhsIdx (ix2 p n) ((contrEquiv1 d K hr hs).symm k) = ix2 k n := funext fun a => Fin.ext (by
    match a with
    | ⟨0, _⟩ => exact (hr0 _ _).trans hk
    | ⟨1, _⟩ => exact hr1 _ _)
  rw [el, er]

/-- The same from the dimension numbers themselves: rows times columns, nothing batched. -/
theorem matmul_zero_plain_apply {M K N : ℕ} {φ₁ φ₂ : FTy}
    (d : DotDims ⟨2, ![M, K]⟩ ⟨2, ![K, N]⟩ ⟨2, ![M, N]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (lhs : FVec Ideal ⟨2, ![M, K]⟩ φ₁) (rhs : FVec Ideal ⟨2, ![K, N]⟩ φ₂) (p : Fin M) (n : Fin N) :
    FloatOps.matmul d prec lhs rhs (constant ⟨2, ![M, N]⟩ .f32 0x00000000#32) (ix2 p n)
      = ∑ k : Fin K, lhs (ix2 p k) * rhs (ix2 k n) :=
  matmul_zero_rows_apply d prec hr hs (lhsIdx_row d hlb hln) (fun i q => d.lhsIdx_val_of_single hlc i q)
    (fun i q => d.rhsIdx_val_of_single hrc i q) (rhsIdx_col d hlb hln hrb hrn) lhs rhs p n

end Idealize.ShloMosaic.ValueIdx
-- ==== Proof.KernelMatmul.lean ====
/-
  The kernel's four matrix products, each read at an entry. All four multiply rows by columns with nothing batched
  (dimension numbers [1] × [0]), so each, into the zero accumulator, is at `(p, n)` the sum over the contracted
  coordinate `k` of `lhs (p, k) * rhs (k, n)`; the dimension numbers of each printed record are read off by `rfl`.
-/
import proofs.«102872_j33741263077663_1_alg».proof.Proof.Gen.KernelIdeal
import proofs.«102872_j33741263077663_1_alg».proof.Proof.LibMatmulRows

noncomputable section

namespace Cert.EdgeMlp.Kernel

open Cert.KernelIdeal Idealize.ShloMosaic Idealize.ShloMosaic.ValueIdx

/-- The four projections: a [3200, 256] block by a [256, 128] weight. -/
theorem matmul_256_128 {φ₁ φ₂ : FTy} (lhs : FVec Ideal S3200x256 φ₁) (rhs : FVec Ideal S256x128 φ₂) (p : Fin 3200) (n : Fin 128) :
    matmul dot_S3200x256_S256x128_S3200x128_1_0_0_1_n_n none lhs rhs (constant S3200x128 .f32 0x00000000#32) (ix2 p n)
      = ∑ k : Fin 256, lhs (ix2 p k) * rhs (ix2 k n) :=
  matmul_zero_plain_apply dot_S3200x256_S256x128_S3200x128_1_0_0_1_n_n none rfl rfl rfl rfl rfl rfl rfl rfl lhs rhs p n

/-- The first classifier layer: [3200, 128] by [128, 64]. -/
theorem matmul_128_64 {φ₁ φ₂ : FTy} (lhs : FVec Ideal S3200x128 φ₁) (rhs : FVec Ideal S128x64 φ₂) (p : Fin 3200) (n : Fin 64) :
    matmul dot_S3200x128_S128x64_S3200x64_1_0_0_1_n_n none lhs rhs (constant S3200x64 .f32 0x00000000#32) (ix2 p n)
      = ∑ k : Fin 128, lhs (ix2 p k) * rhs (ix2 k n) :=
  matmul_zero_plain_apply dot_S3200x128_S128x64_S3200x64_1_0_0_1_n_n none rfl rfl rfl rfl rfl rfl rfl rfl lhs rhs p n

/-- The second: [3200, 64] by [64, 32]. -/
theorem matmul_64_32 {φ₁ φ₂ : FTy} (lhs : FVec Ideal S3200x64 φ₁) (rhs : FVec Ideal S64x32 φ₂) (p : Fin 3200) (n : Fin 32) :
    matmul dot_S3200x64_S64x32_S3200x32_1_0_0_1_n_n none lhs rhs (constant S3200x32 .f32 0x00000000#32) (ix2 p n)
      = ∑ k : Fin 64, lhs (ix2 p k) * rhs (ix2 k n) :=
  matmul_zero_plain_apply dot_S3200x64_S64x32_S3200x32_1_0_0_1_n_n none rfl rfl rfl rfl rfl rfl rfl rfl lhs rhs p n

/-- The third: [3200, 32] by [32, 26]. -/
theorem matmul_32_26 {φ₁ φ₂ : FTy} (lhs : FVec Ideal S3200x32 φ₁) (rhs : FVec Ideal S32x26 φ₂) (p : Fin 3200) (n : Fin 26) :
    matmul dot_S3200x32_S32x26_S3200x26_1_0_0_1_n_n none lhs rhs (constant S3200x26 .f32 0x00000000#32) (ix2 p n)
      = ∑ k : Fin 32, lhs (ix2 p k) * rhs (ix2 k n) :=
  matmul_zero_plain_apply dot_S3200x32_S32x26_S3200x26_1_0_0_1_n_n none rfl rfl rfl rfl rfl rfl rfl rfl lhs rhs p n

end Cert.EdgeMlp.Kernel

end
-- ==== Proof.KernelRow.lean ====
/-
  The kernel body, row by row. The body loads a block of 3200 edges — their rows of the two gathered arrays — and
  the weights, and stores one block of class scores. Read at entry `(p, q)` of the block, every operation of the body
  reaches only row `p` of what it reads: a matrix product reads row `p` of its left operand, the two lane
  reductions (the maximum and the sum of the softmax) run along row `p`, the column casts and broadcasts spread a
  per-row value back over the row, and the rest is pointwise. Narrowing to bfloat16 changes nothing on the extended
  reals. So the stored entry is `edgeRow` of rows `p` of the two loaded blocks.
-/
import proofs.«102872_j33741263077663_1_alg».proof.Proof.Gen.KernelIdeal.Skeleton
import proofs.«102872_j33741263077663_1_alg».proof.Proof.EdgeSpec
import proofs.«102872_j33741263077663_1_alg».proof.Proof.LibRowSpread
import proofs.«102872_j33741263077663_1_alg».proof.Proof.KernelMatmul

noncomputable section

namespace Cert.EdgeMlp.Kernel

open Cert.KernelIdeal Cert.KernelIdeal.Gen Cert.EdgeMlp Idealize.ShloMosaic Idealize.ShloMosaic.ValueIdx

/-! ## The two lane reductions along a row, and the exponential at an index -/

theorem exp_apply {s : Shape} {φ : FTy} (a : FVec Ideal s φ) (i : s.Idx) : exp a i = Ideal.exp (a i) := rfl

/-- The lane sum of a [3200, 128] block at row `p`: the sum of the row's 128 entries. (The two proof arguments are
    typed as the printed body's own are.) -/
theorem rowsum_apply (src : FVec Ideal S3200x128 .f32) (hφ : FTy.f32 = FTy.f32 ∨ FTy.f32 = FTy.bf16)
    (hacc : (0x00000000#32 : BitVec 32) = 0x00000000#32) (p : Fin 3200) :
    multiReduction .add [1] S3200 src 0x00000000#32 reduces_S3200x128_S3200 hφ hacc (ix1 p)
      = ∑ k : Fin 128, src (ix2 p k) := by
  refine (Ideal.multiReduction_add_single src 0x00000000#32 reduces_S3200x128_S3200 hφ hacc (ix1 p)).trans ?_
  refine Finset.sum_congr rfl fun k _ => ?_
  exact congrArg src (funext fun a => Fin.ext (by match a with | ⟨0, _⟩ => rfl | ⟨1, _⟩ => rfl))

/-- The lane maximum of a [3200, 128] block at row `p`: the fold of `max` from -∞ over the row's 128 entries. -/
theorem rowmax_apply (src : FVec Ideal S3200x128 .f32) (hφ : FTy.f32 = FTy.f32 ∨ FTy.f32 = FTy.bf16)
    (hacc : (0xFF800000#32 : BitVec 32) = 0xFF800000#32) (p : Fin 3200) :
    multiReduction .maximumf [1] S3200 src 0xFF800000#32 reduces_S3200x128_S3200 hφ hacc (ix1 p)
      = (Finset.univ : Finset (Fin 128)).fold max negInf (fun k => src (ix2 p k)) := by
  refine (Ideal.multiReduction_maximumf_single src 0xFF800000#32 reduces_S3200x128_S3200 hφ hacc (ix1 p)).trans ?_
  show (Finset.univ : Finset (Fin 128)).fold max negInf (fun k => src (reduces_S3200x128_S3200.lift (ix1 p) k)) = _
  refine congrArg ((Finset.univ : Finset (Fin 128)).fold max negInf) (funext fun k => ?_)
  exact congrArg src (funext fun a => Fin.ext (by match a with | ⟨0, _⟩ => rfl | ⟨1, _⟩ => rfl))

/-! ## One affine layer of a block, at an entry -/

theorem affine_256_128 (x : FVec Ideal S3200x256 .bf16) (w : FVec Ideal S256x128 .bf16) (b : FVec Ideal S128 .f32)
    (p : Fin 3200) (n : Fin 128) :
    addf (matmul dot_S3200x256_S256x128_S3200x128_1_0_0_1_n_n none x (shapeCast S256x128 w shapeCasts_S256x128_S256x128) (constant S3200x128 .f32 0x00000000#32))
        (broadcastTo S3200x128 (shapeCast S1x128 b shapeCasts_S128_S1x128) broadcasts_S1x128_S3200x128) (ix2 p n)
      = affine (fun k => x (ix2 p k)) w b n := by
  rw [addf_apply, matmul_256_128, row_spread_apply, shapeCast_self w shapeCasts_S256x128_S256x128]
  rfl

theorem affine_128_64 (x : FVec Ideal S3200x128 .bf16) (w : FVec Ideal S128x64 .bf16) (b : FVec Ideal S64 .f32)
    (p : Fin 3200) (n : Fin 64) :
    addf (matmul dot_S3200x128_S128x64_S3200x64_1_0_0_1_n_n none x (shapeCast S128x64 w shapeCasts_S128x64_S128x64) (constant S3200x64 .f32 0x00000000#32))
        (broadcastTo S3200x64 (shapeCast S1x64 b shapeCasts_S64_S1x64) broadcasts_S1x64_S3200x64) (ix2 p n)
      = affine (fun k => x (ix2 p k)) w b n := by
  rw [addf_apply, matmul_128_64, row_spread_apply, shapeCast_self w shapeCasts_S128x64_S128x64]
  rfl

theorem affine_64_32 (x : FVec Ideal S3200x64 .bf16) (w : FVec Ideal S64x32 .bf16) (b : FVec Ideal S32 .f32)
    (p : Fin 3200) (n : Fin 32) :
    addf (matmul dot_S3200x64_S64x32_S3200x32_1_0_0_1_n_n none x (shapeCast S64x32 w shapeCasts_S64x32_S64x32) (constant S3200x32 .f32 0x00000000#32))
        (broadcastTo S3200x32 (shapeCast S1x32 b shapeCasts_S32_S1x32) broadcasts_S1x32_S3200x32) (ix2 p n)
      = affine (fun k => x (ix2 p k)) w b n := by
  rw [addf_apply, matmul_64_32, row_spread_apply, shapeCast_self w shapeCasts_S64x32_S64x32]
  rfl

theorem affine_32_26 (x : FVec Ideal S3200x32 .bf16) (w : FVec Ideal S32x26 .bf16) (b : FVec Ideal S26 .f32)
    (p : Fin 3200) (n : Fin 26) :
    addf (matmul dot_S3200x32_S32x26_S3200x26_1_0_0_1_n_n none x (shapeCast S32x26 w shapeCasts_S32x26_S32x26) (constant S3200x26 .f32 0x00000000#32))
        (broadcastTo S3200x26 (shapeCast S1x26 b shapeCasts_S26_S1x26) broadcasts_S1x26_S3200x26) (ix2 p n)
      = affine (fun k => x (ix2 p k)) w b n := by
  rw [addf_apply, matmul_32_26, row_spread_apply, shapeCast_self w shapeCasts_S32x26_S32x26]
  rfl

/-! ## The first part of the body: the four projections, the scores, the row maximum -/

section Part1

variable (v0 v3 : FVec Ideal S3200x256 .f32)

/-- A loaded block cast to its own shape and narrowed to bfloat16 is the block. -/
theorem pay2_eq : k0_pay2 (F := Ideal) v0 = v0 := shapeCast_self v0 shapeCasts_S3200x256_S3200x256
theorem pay3_eq : k0_pay3 (F := Ideal) v3 = v3 := shapeCast_self v3 shapeCasts_S3200x256_S3200x256

/-- `origin` (and, with other weights, `query`) at `(p, n)`. -/
theorem pay4_row (w : FVec Ideal S256x128 .bf16) (b : FVec Ideal S128 .f32) (p : Fin 3200) (n : Fin 128) :
    k0_pay4 (F := Ideal) v0 w b (ix2 p n) = affine (fun k => v0 (ix2 p k)) w b n :=
  (affine_256_128 (k0_pay2 (F := Ideal) v0) w b p n).trans (by rw [pay2_eq])

/-- `value` at `(p, n)`. -/
theorem pay5_row (w : FVec Ideal S256x128 .bf16) (b : FVec Ideal S128 .f32) (p : Fin 3200) (n : Fin 128) :
    k0_pay5 (F := Ideal) v3 w b (ix2 p n) = affine (fun k => v3 (ix2 p k)) w b n :=
  (affine_256_128 (k0_pay3 (F := Ideal) v3) w b p n).trans (by rw [pay3_eq])

/-- `query ⊙ key` at `(p, n)`. -/
theorem pay6_row (w4 : FVec Ideal S256x128 .bf16) (b5 : FVec Ideal S128 .f32) (w6 : FVec Ideal S256x128 .bf16) (b7 : FVec Ideal S128 .f32)
    (p : Fin 3200) (n : Fin 128) :
    k0_pay6 (F := Ideal) v0 v3 w4 b5 w6 b7 (ix2 p n)
      = scores (fun k => v0 (ix2 p k)) (fun k => v3 (ix2 p k)) w4 b5 w6 b7 n :=
  congrArg₂ (· * ·)
    ((affine_256_128 (k0_pay2 (F := Ideal) v0) w4 b5 p n).trans (by rw [pay2_eq]))
    ((affine_256_128 (k0_pay3 (F := Ideal) v3) w6 b7 p n).trans (by rw [pay3_eq]))

/-- The row maximum of the scores, before it is joined with -∞. -/
theorem pay7_row (w4 : FVec Ideal S256x128 .bf16) (b5 : FVec Ideal S128 .f32) (w6 : FVec Ideal S256x128 .bf16) (b7 : FVec Ideal S128 .f32)
    (p : Fin 3200) :
    k0_pay7 (F := Ideal) v0 v3 w4 b5 w6 b7 (ix1 p)
      = (Finset.univ : Finset (Fin 128)).fold max negInf (scores (fun k => v0 (ix2 p k)) (fun k => v3 (ix2 p k)) w4 b5 w6 b7) := by
  refine (rowmax_apply (k0_pay6 (F := Ideal) v0 v3 w4 b5 w6 b7) (.inl rfl) rfl p).trans ?_
  exact congrArg ((Finset.univ : Finset (Fin 128)).fold max negInf) (funext fun k => pay6_row v0 v3 w4 b5 w6 b7 p k)

end Part1

/-! ## The second part: softmax, fusion and the classifier, over the first part's results -/

theorem pay1_row (v12 v33 v34 : FVec Ideal S3200x128 .f32) (v35 v36 : FVec Ideal S3200 .f32)
    (w10 : FVec Ideal S128x64 .bf16) (b11 : FVec Ideal S64 .f32) (w12 : FVec Ideal S64x32 .bf16) (b13 : FVec Ideal S32 .f32)
    (w14 : FVec Ideal S32x26 .bf16) (b15 : FVec Ideal S26 .f32) (p : Fin 3200) (q : Fin 26)
    (origin value s : Fin 128 → EReal)
    (h12 : ∀ n, v12 (ix2 p n) = origin n) (h33 : ∀ n, v33 (ix2 p n) = value n) (h34 : ∀ n, v34 (ix2 p n) = s n)
    (h35 : v35 (ix1 p) = (Finset.univ : Finset (Fin 128)).fold max negInf s) (h36 : v36 (ix1 p) = negInf) :
    k0_pay1 (F := Ideal) v12 v33 v34 v35 v36 w10 b11 w12 b13 w14 b15 (ix2 p q)
      = affine (fun j => affine (fun i => max (affine (fun n => value n * softmaxRow s n + origin n) w10 b11 i) zeroW) w12 b13 j) w14 b15 q := by
  unfold k0_pay1
  simp only [matmul_32_26, matmul_64_32, matmul_128_64, row_spread_apply, column_spread_apply, shapeCast_self,
    truncf_apply, maximumf_apply, broadcast_apply, addf_apply, mulf_apply, divf_apply, subf_apply, exp_apply,
    Ideal.ofBits_def, h12, h33, h34, h35, h36, affine, softmaxRow, rowMax]
  rw [rowsum_apply]
  simp only [exp_apply, subf_apply, column_spread_apply, maximumf_apply, h34, h35, h36]

/-- THE BODY'S STORED ENTRY: `(p, q)` of the block the body stores is `edgeRow` of rows `p` of the two loaded blocks. -/
theorem payload_row (x0 x1 : FVec Ideal S3200x256 .f32)
    (w2 : FVec Ideal S256x128 .bf16) (b3 : FVec Ideal S128 .f32) (w4 : FVec Ideal S256x128 .bf16) (b5 : FVec Ideal S128 .f32)
    (w6 : FVec Ideal S256x128 .bf16) (b7 : FVec Ideal S128 .f32) (w8 : FVec Ideal S256x128 .bf16) (b9 : FVec Ideal S128 .f32)
    (w10 : FVec Ideal S128x64 .bf16) (b11 : FVec Ideal S64 .f32) (w12 : FVec Ideal S64x32 .bf16) (b13 : FVec Ideal S32 .f32)
    (w14 : FVec Ideal S32x26 .bf16) (b15 : FVec Ideal S26 .f32) (p : Fin 3200) (q : Fin 26) :
    k0_pay1 (F := Ideal) (k0_pay4 x0 w2 b3) (k0_pay5 x1 w8 b9) (k0_pay6 x0 x1 w4 b5 w6 b7) (k0_pay7 x0 x1 w4 b5 w6 b7)
        (k0_pay8 (F := Ideal)) w10 b11 w12 b13 w14 b15 (ix2 p q)
      = edgeRow (fun k => x0 (ix2 p k)) (fun k => x1 (ix2 p k)) w2 b3 w4 b5 w6 b7 w8 b9 w10 b11 w12 b13 w14 b15 q :=
  pay1_row _ _ _ _ _ w10 b11 w12 b13 w14 b15 p q _ _ _
    (pay4_row x0 w2 b3 p) (pay5_row x1 w8 b9 p) (pay6_row x0 x1 w4 b5 w6 b7 p) (pay7_row x0 x1 w4 b5 w6 b7 p) rfl

end Cert.EdgeMlp.Kernel

end
-- ==== Proof.KernelArray.lean ====
/-
  From blocks to the array. The grid has 250 points; point `t` loads rows `3200·t … 3200·t + 3199` of the two gathered
  arrays (all 256 columns), every weight and bias whole, and writes back rows `3200·t … 3200·t + 3199` of the result
  (all 26 columns). The body's stored entry `(p, q)` is `edgeRow` of rows `p` of the two loaded blocks (the row-wise
  reading of the body), and row `p` of a loaded block is row `3200·t + p` of its array: so what point `t` writes back is
  block `t` of ONE whole-array function, `edgeOut` of the arrays as the region finds them. The 250 blocks tile the
  result's 800000 rows (row `r` lies in block `r / 3200`), so the result array ends holding that function.
  The relations between the printed index maps are decided once over the 250 points.
-/
import proofs.«102872_j33741263077663_1_alg».proof.Proof.Gen.KernelIdeal.Value
import proofs.«102872_j33741263077663_1_alg».proof.Proof.KernelRow
import Idealize.ShloMosaic.Lib.Pipeline.Value

noncomputable section

namespace Cert.EdgeMlp.Kernel

open Cert.KernelIdeal Cert.KernelIdeal.Gen Cert.KernelIdeal.Value Cert.EdgeMlp Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-! ## The index maps over the grid -/

/-- The two row windows move with the output window down the rows and stay at column block 0; the output's row block
    index stays below 250. -/
theorem idx_rows : ∀ t : Fin cfg0.N,
    win0_0.index t (0 : Fin 2) = win0_16.index t (0 : Fin 2) ∧ win0_0.index t (1 : Fin 2) = 0
    ∧ win0_1.index t (0 : Fin 2) = win0_16.index t (0 : Fin 2) ∧ win0_1.index t (1 : Fin 2) = 0
    ∧ win0_16.index t (1 : Fin 2) = 0 ∧ win0_16.index t (0 : Fin 2) ≤ 249 :=
  (by decide +kernel : ∀ t : Fin grid0.N, _)

/-- Every weight and bias window stays at block 0 on every axis. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 1) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 1) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 1) = 0 :=
  (by decide +kernel : ∀ t : Fin grid0.N, _)

/-! ## A weight's or a bias's block is its whole array -/

theorem blk2 (c : Dev nD) (t : Fin cfg0.N) : (iblk m c 2 t : FVec Ideal S256x128 .bf16) = V m c main_v30 := by
  obtain ⟨e0, e1⟩ := idx2 t
  funext y
  show V m c main_v30 (((cfg0.win 2).blk t).view.emb y) = V m c main_v30 y
  refine congrArg (V m c main_v30) (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega

theorem blk3 (c : Dev nD) (t : Fin cfg0.N) : (iblk m c 3 t : FVec Ideal S128 .f32) = V m c main_arg5 := by
  have e0 := idx3 t
  funext y
  show V m c main_arg5 (((cfg0.win 3).blk t).view.emb y) = V m c main_arg5 y
  refine congrArg (V m c main_arg5) (funext fun a => Fin.ext ?_)
  match a with
  | ⟨0, _⟩ => show win0_3.index t (0 : Fin 1) * 128 + 1 * (y 0).val = (y 0).val; omega

theorem blk4 (c : Dev nD) (t : Fin cfg0.N) : (iblk m c 4 t : FVec Ideal S256x128 .bf16) = V m c main_v31 := by
  obtain ⟨e0, e1⟩ := idx4 t
  funext y
  show V m c main_v31 (((cfg0.win 4).blk t).view.emb y) = V m c main_v31 y
  refine congrArg (V m c main_v31) (funext fun a => Fin.ext ?_)
  match a with
  | ⟨0, _⟩ => show win0_4.index t (0 : Fin 2) * 256 + 1 * (y 0).val = (y 0).val; omega
  | ⟨1, _⟩ => show win0_4.index t (1 : Fin 2) * 128 + 1 * (y 1).val = (y 1).val; omega

theorem blk5 (c : Dev nD) (t : Fin cfg0.N) : (iblk m c 5 t : FVec Ideal S128 .f32) = V m c main_arg7 := by
  have e0 := idx5 t
  funext y
  show V m c main_arg7 (((cfg0.win 5).blk t).view.emb y) = V m c main_arg7 y
  refine congrArg (V m c main_arg7) (funext fun a => Fin.ext ?_)
  match a with
  | ⟨0, _⟩ => show win0_5.index t (0 : Fin 1) * 128 + 1 * (y 0).val = (y 0).val; omega

theorem blk6 (c : Dev nD) (t : Fin cfg0.N) : (iblk m c 6 t : FVec Ideal S256x128 .bf16) = V m c main_v32 := by
  obtain ⟨e0, e1⟩ := idx6 t
  funext y
  show V m c main_v32 (((cfg0.win 6).blk t).view.emb y) = V m c main_v32 y
  refine congrArg (V m c main_v32) (funext fun a => Fin.ext ?_)
  match a with
  | ⟨0, _⟩ => show win0_6.index t (0 : Fin 2) * 256 + 1 * (y 0).val = (y 0).val; omega
  | ⟨1, _⟩ => show win0_6.index t (1 : Fin 2) * 128 + 1 * (y 1).val = (y 1).val; omega

theorem blk7 (c : Dev nD) (t : Fin cfg0.N) : (iblk m c 7 t : FVec Ideal S128 .f32) = V m c main_arg9 := by
  have e0 := idx7 t
  funext y
  show V m c main_arg9 (((cfg0.win 7).blk t).view.emb y) = V m c main_arg9 y
  refine congrArg (V m c main_arg9) (funext fun a => Fin.ext ?_)
  match a with
  | ⟨0, _⟩ => show win0_7.index t (0 : Fin 1) * 128 + 1 * (y 0).val = (y 0).val; omega

theorem blk8 (c : Dev nD) (t : Fin cfg0.N) : (iblk m c 8 t : FVec Ideal S256x128 .bf16) = V m c main_v33 := by
  obtain ⟨e0, e1⟩ := idx8 t
  funext y
  show V m c main_v33 (((cfg0.win 8).blk t).view.emb y) = V m c main_v33 y
  refine congrArg (V m c main_v33) (funext fun a => Fin.ext ?_)
  match a with
  | ⟨0, _⟩ => show win0_8.index t (0 : Fin 2) * 256 + 1 * (y 0).val = (y 0).val; omega
  | ⟨1, _⟩ => show win0_8.index t (1 : Fin 2) * 128 + 1 * (y 1).val = (y 1).val; omega

theorem blk9 (c : Dev nD) (t : Fin cfg0.N) : (iblk m c 9 t : FVec Ideal S128 .f32) = V m c main_arg11 := by
  have e0 := idx9 t
  funext y
  show V m c main_arg11 (((cfg0.win 9).blk t).view.emb y) = V m c main_arg11 y
  refine congrArg (V m c main_arg11) (funext fun a => Fin.ext ?_)
  match a with
  | ⟨0, _⟩ => show win0_9.index t (0 : Fin 1) * 128 + 1 * (y 0).val = (y 0).val; omega

theorem blk10 (c : Dev nD) (t : Fin cfg0.N) : (iblk m c 10 t : FVec Ideal S128x64 .bf16) = V m c main_v34 := by
  obtain ⟨e0, e1⟩ := idx10 t
  funext y
  show V m c main_v34 (((cfg0.win 10).blk t).view.emb y) = V m c main_v34 y
  refine congrArg (V m c main_v34) (funext fun a => Fin.ext ?_)
  match a with
  | ⟨0, _⟩ => show win0_10.index t (0 : Fin 2) * 128 + 1 * (y 0).val = (y 0).val; omega
  | ⟨1, _⟩ => show win0_10.index t (1 : Fin 2) * 64 + 1 * (y 1).val = (y 1).val; omega

theorem blk11 (c : Dev nD) (t : Fin cfg0.N) : (iblk m c 11 t : FVec Ideal S64 .f32) = V m c main_arg13 := by
  have e0 := idx11 t
  funext y
  show V m c main_arg13 (((cfg0.win 11).blk t).view.emb y) = V m c main_arg13 y
  refine congrArg (V m c main_arg13) (funext fun a => Fin.ext ?_)
  match a with
  | ⟨0, _⟩ => show win0_11.index t (0 : Fin 1) * 64 + 1 * (y 0).val = (y 0).val; omega

theorem blk12 (c : Dev nD) (t : Fin cfg0.N) : (iblk m c 12 t : FVec Ideal S64x32 .bf16) = V m c main_v35 := by
  obtain ⟨e0, e1⟩ := idx12 t
  funext y
  show V m c main_v35 (((cfg0.win 12).blk t).view.emb y) = V m c main_v35 y
  refine congrArg (V m c main_v35) (funext fun a => Fin.ext ?_)
  match a with
  | ⟨0, _⟩ => show win0_12.index t (0 : Fin 2) * 64 + 1 * (y 0).val = (y 0).val; omega
  | ⟨1, _⟩ => show win0_12.index t (1 : Fin 2) * 32 + 1 * (y 1).val = (y 1).val; omega

theorem blk13 (c : Dev nD) (t : Fin cfg0.N) : (iblk m c 13 t : FVec Ideal S32 .f32) = V m c main_arg15 := by
  have e0 := idx13 t
  funext y
  show V m c main_arg15 (((cfg0.win 13).blk t).view.emb y) = V m c main_arg15 y
  refine congrArg (V m c main_arg15) (funext fun a => Fin.ext ?_)
  match a with
  | ⟨0, _⟩ => show win0_13.index t (0 : Fin 1) * 32 + 1 * (y 0).val = (y 0).val; omega

theorem blk14 (c : Dev nD) (t : Fin cfg0.N) : (iblk m c 14 t : FVec Ideal S32x26 .bf16) = V m c main_v36 := by
  obtain ⟨e0, e1⟩ := idx14 t
  funext y
  show V m c main_v36 (((cfg0.win 14).blk t).view.emb y) = V m c main_v36 y
  refine congrArg (V m c main_v36) (funext fun a => Fin.ext ?_)
  match a with
  | ⟨0, _⟩ => show win0_14.index t (0 : Fin 2) * 32 + 1 * (y 0).val = (y 0).val; omega
  | ⟨1, _⟩ => show win0_14.index t (1 : Fin 2) * 26 + 1 * (y 1).val = (y 1).val; omega

theorem blk15 (c : Dev nD) (t : Fin cfg0.N) : (iblk m c 15 t : FVec Ideal S26 .f32) = V m c main_arg17 := by
  have e0 := idx15 t
  funext y
  show V m c main_arg17 (((cfg0.win 15).blk t).view.emb y) = V m c main_arg17 y
  refine congrArg (V m c main_arg17) (funext fun a => Fin.ext ?_)
  match a with
  | ⟨0, _⟩ => show win0_15.index t (0 : Fin 1) * 26 + 1 * (y 0).val = (y 0).val; omega

/-! ## Row `p` of a row window's block is the array's row under the output block's row `p` -/

theorem geo_rows (c : Dev nD) (t : Fin cfg0.N) (p : Fin 3200) (q : Fin 26) :
    (fun k : Fin 256 => (iblk m c 0 t : FVec Ideal S3200x256 .f32) (ix2 p k))
      = fun k => (V m c main_v14 : S800000x256.Idx → EReal)
          (ix2 ((((cfg0.win 16).blk t).view.emb (ix2 p q) : S800000x26.Idx) 0) k) := by
  obtain ⟨e0, e1, -, -, -, -⟩ := idx_rows t
  funext k
  show V m c main_v14 (((cfg0.win 0).blk t).view.emb (ix2 p k)) = _
  refine congrArg (V m c main_v14) (funext fun a => Fin.ext ?_)
  match a with
  | ⟨0, _⟩ => show win0_0.index t (0 : Fin 2) * 3200 + 1 * p.val = win0_16.index t (0 : Fin 2) * 3200 + 1 * p.val; omega
  | ⟨1, _⟩ => show win0_0.index t (1 : Fin 2) * 256 + 1 * k.val = k.val; omega

theorem desc_rows (c : Dev nD) (t : Fin cfg0.N) (p : Fin 3200) (q : Fin 26) :
    (fun k : Fin 256 => (iblk m c 1 t : FVec Ideal S3200x256 .f32) (ix2 p k))
      = fun k => (V m c main_v29 : S800000x256.Idx → EReal)
          (ix2 ((((cfg0.win 16).blk t).view.emb (ix2 p q) : S800000x26.Idx) 0) k) := by
  obtain ⟨-, -, e0, e1, -, -⟩ := idx_rows t
  funext k
  show V m c main_v29 (((cfg0.win 1).blk t).view.emb (ix2 p k)) = _
  refine congrArg (V m c main_v29) (funext fun a => Fin.ext ?_)
  match a with
  | ⟨0, _⟩ => show win0_1.index t (0 : Fin 2) * 3200 + 1 * p.val = win0_16.index t (0 : Fin 2) * 3200 + 1 * p.val; omega
  | ⟨1, _⟩ => show win0_1.index t (1 : Fin 2) * 256 + 1 * k.val = k.val; omega

/-- The output block's column `q` is the array's column `q`. -/
theorem out_col (t : Fin cfg0.N) (p : Fin 3200) (q : Fin 26) :
    (((cfg0.win 16).blk t).view.emb (ix2 p q) : S800000x26.Idx) 1 = q := by
  obtain ⟨-, -, -, -, e, -⟩ := idx_rows t
  refine Fin.ext ?_
  show win0_16.index t (1 : Fin 2) * 26 + 1 * q.val = q.val
  omega

/-! ## The result array -/

/-- The result as ONE function of the arrays the region finds: `edgeOut` of the two gathered arrays and the weights. -/
abbrev outArr (c : Dev nD) : S800000x26.Idx → EReal :=
  edgeOut (R := 800000) (V m c main_v14) (V m c main_v29) (V m c main_v30) (V m c main_arg5) (V m c main_v31) (V m c main_arg7)
    (V m c main_v32) (V m c main_arg9) (V m c main_v33) (V m c main_arg11) (V m c main_v34) (V m c main_arg13)
    (V m c main_v35) (V m c main_arg15) (V m c main_v36) (V m c main_arg17)

/-- WHAT POINT `t` WRITES BACK is block `t` of `outArr`. -/
theorem flushed_eq (c : Dev nD) (t : Fin cfg0.N) :
    (dats m 0 c).flushed 16 t = ((cfg0.win 16).blk t).view.read (Elt Ideal) (outArr m c) := by
  rw [flushed16]
  unfold out0_16
  rw [View.canon_unit_zero zeros2]
  simp only [View.ld_unit_zero (S := S3200x256) zeros2, View.ld_unit_zero (S := S256x128) zeros2,
    View.ld_unit_zero (S := S128x64) zeros2, View.ld_unit_zero (S := S64x32) zeros2, View.ld_unit_zero (S := S32x26) zeros2,
    View.ld_unit_zero (S := S128) zeros1, View.ld_unit_zero (S := S64) zeros1, View.ld_unit_zero (S := S32) zeros1,
    View.ld_unit_zero (S := S26) zeros1]
  funext j
  obtain ⟨p, q, rfl⟩ : ∃ (p : Fin 3200) (q : Fin 26), j = ix2 p q := ⟨j 0, j 1, eq_ix2 j⟩
  show k0_pay1 (F := Ideal) (k0_pay4 (iblk m c 0 t) (iblk m c 2 t) (iblk m c 3 t)) (k0_pay5 (iblk m c 1 t) (iblk m c 8 t) (iblk m c 9 t))
      (k0_pay6 (iblk m c 0 t) (iblk m c 1 t) (iblk m c 4 t) (iblk m c 5 t) (iblk m c 6 t) (iblk m c 7 t))
      (k0_pay7 (iblk m c 0 t) (iblk m c 1 t) (iblk m c 4 t) (iblk m c 5 t) (iblk m c 6 t) (iblk m c 7 t))
      (k0_pay8 (F := Ideal)) (iblk m c 10 t) (iblk m c 11 t) (iblk m c 12 t) (iblk m c 13 t) (iblk m c 14 t) (iblk m c 15 t) (ix2 p q)
    = outArr m c (((cfg0.win 16).blk t).view.emb (ix2 p q))
  refine (payload_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) p q).trans ?_
  rw [geo_rows m c t p q, desc_rows m c t p q, blk2, blk3, blk4, blk5, blk6, blk7, blk8, blk9, blk10, blk11, blk12, blk13,
    blk14, blk15]
  show _ = edgeRow _ _ _ _ _ _ _ _ _ _ _ _ _ _ _ _ ((((cfg0.win 16).blk t).view.emb (ix2 p q) : S800000x26.Idx) 1)
  rw [out_col t p q]

/-- An index of the result lies in point `t`'s block iff each coordinate is in the block's range on its axis. -/
theorem mem_blk (t : Fin cfg0.N) (i : S800000x26.Idx) :
    i ∈ ((cfg0.win 16).blk t).view.set ↔ ∀ a : Fin 2, win0_16.index t a * S3200x26.size a ≤ (i a).val ∧ (i a).val < win0_16.index t a * S3200x26.size a + S3200x26.size a := by
  show i ∈ ((View.whole main_v37).slice (win0_16.rect t)).set ↔ _
  rw [View.set_slice_whole, Rect.mem_set_unit]
  exact Iff.rfl

/-- Row `r` of the result lies in the block of point `r / 3200`: the 250 blocks cover the array. -/
theorem cover (i : S800000x26.Idx) : ∃ t : Fin cfg0.N, (cfg0.win 16).flush t = true ∧ i ∈ ((cfg0.win 16).blk t).view.set := by
  have hi0 : (i 0).val < 800000 := (i 0).isLt
  have hi1 : (i 1).val < 26 := (i 1).isLt
  have hN : cfg0.N = 250 := N_0
  have hlt : (i 0).val / 3200 < cfg0.N := by rw [hN]; omega
  obtain ⟨t, ht⟩ : ∃ t : Fin cfg0.N, t.val = (i 0).val / 3200 := ⟨⟨_, hlt⟩, rfl⟩
  refine ⟨t, flush0_16 t, ?_⟩
  rw [mem_blk]
  have e0 : win0_16.index t (0 : Fin 2) = t.val := idx_pt16 t
  obtain ⟨-, -, -, -, e1, -⟩ := idx_rows t
  intro a
  match a with
  | ⟨0, _⟩ =>
    show win0_16.index t (0 : Fin 2) * 3200 ≤ (i 0).val ∧ (i 0).val < win0_16.index t (0 : Fin 2) * 3200 + 3200
    rw [e0, ht]; omega
  | ⟨1, _⟩ =>
    show win0_16.index t (1 : Fin 2) * 26 ≤ (i 1).val ∧ (i 1).val < win0_16.index t (1 : Fin 2) * 26 + 26
    rw [e1]; omega

/-- THE RESULT ARRAY after the run is `outArr`. -/
theorem final (c : Dev nD) : (dats m 0 c).arrAt 16 cfg0.N = outArr m c :=
  (dats m 0 c).arrAt_eq_of_cover 16 (outArr m c) (fun t _ => flushed_eq m c t) cover

end Cert.EdgeMlp.Kernel

end
-- ==== Proof.HostPrefix.lean ====
/-
  What the region finds in the arrays the host operations before it wrote, read back from those operations.
  The two gathered arrays are the host's gather of the endpoint rows and their concatenation, the very operations the
  reference begins with, on the same arguments: one term. Each weight reaches the kernel narrowed to bfloat16 by the
  host, which on the extended reals is the weight itself.
-/
import proofs.«102872_j33741263077663_1_alg».proof.Proof.Gen.KernelIdeal.Frame
import proofs.«102872_j33741263077663_1_alg».proof.Proof.Gen.ReferenceIdeal.Read
import Idealize.ShloMosaic.Lib.StableHlo.Run

noncomputable section

namespace Cert.EdgeMlp.Kernel

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 6400000 in
/-- The gathered node features the region finds are the reference's gathered node features of the same arguments. -/
theorem V_geo (c : Dev nD) :
    (V m c main_v14 : S800000x256.Idx → EReal)
      = Cert.ReferenceIdeal.Read.val_main_v14 (F := Ideal) (m ((c : Thread nD τ).loc main_arg0))
          (m ((c : Thread nD τ).loc main_arg2)) (m ((c : Thread nD τ).loc main_arg3)) := by
  dsimp only [V, hostOps0]
  after_results
  rfl

set_option maxHeartbeats 6400000 in
/-- Likewise the gathered descriptors. -/
theorem V_desc (c : Dev nD) :
    (V m c main_v29 : S800000x256.Idx → EReal)
      = Cert.ReferenceIdeal.Read.val_main_v29 (F := Ideal) (m ((c : Thread nD τ).loc main_arg1))
          (m ((c : Thread nD τ).loc main_arg2)) (m ((c : Thread nD τ).loc main_arg3)) := by
  dsimp only [V, hostOps0]
  after_results
  rfl

/-! The seven weights, narrowed by the host: unchanged on the extended reals. -/

theorem V_We (c : Dev nD) : (V m c main_v30 : S256x128.Idx → EReal) = m ((c : Thread nD τ).loc main_arg4) := by
  dsimp only [V, hostOps0]
  after_results
  rfl

theorem V_Wq (c : Dev nD) : (V m c main_v31 : S256x128.Idx → EReal) = m ((c : Thread nD τ).loc main_arg6) := by
  dsimp only [V, hostOps0]
  after_results
  rfl

theorem V_Wk (c : Dev nD) : (V m c main_v32 : S256x128.Idx → EReal) = m ((c : Thread nD τ).loc main_arg8) := by
  dsimp only [V, hostOps0]
  after_results
  rfl

theorem V_Wv (c : Dev nD) : (V m c main_v33 : S256x128.Idx → EReal) = m ((c : Thread nD τ).loc main_arg10) := by
  dsimp only [V, hostOps0]
  after_results
  rfl

theorem V_Wc1 (c : Dev nD) : (V m c main_v34 : S128x64.Idx → EReal) = m ((c : Thread nD τ).loc main_arg12) := by
  dsimp only [V, hostOps0]
  after_results
  rfl

theorem V_Wc2 (c : Dev nD) : (V m c main_v35 : S64x32.Idx → EReal) = m ((c : Thread nD τ).loc main_arg14) := by
  dsimp only [V, hostOps0]
  after_results
  rfl

theorem V_Wc3 (c : Dev nD) : (V m c main_v36 : S32x26.Idx → EReal) = m ((c : Thread nD τ).loc main_arg16) := by
  dsimp only [V, hostOps0]
  after_results
  rfl

end Cert.EdgeMlp.Kernel

end
-- ==== Proof.lean ====
/-
  The certificate of the fused edge classifier against its jnp reference, over the extended reals.

  Both programs begin with the same host operations: they gather the two endpoint rows of every edge from the node
  features and from the descriptors and lay them side by side (two [800000, 256] arrays). From there the reference
  applies, with host operations on whole arrays, four affine maps, a softmax along the 128 features of
  `query ⊙ key`, `value ⊙ alpha + origin`, and a three-layer classifier; the kernel does the same inside ONE
  pallas_call, 3200 edges at a grid point, with the matrix products fed in bfloat16 — which is the identity on the
  extended reals. Every one of those operations is local to an edge, so both results are, row by row, the one
  function `edgeRow` of that edge's two gathered rows (Proof/EdgeSpec.lean):
    * the reference, through its generated run and one-operation lemmas (Proof/RefRow.lean);
    * the kernel's body at an entry of its block (Proof/KernelRow.lean), then block `t` of the result array as block
      `t` of one whole-array function, the 250 blocks tiling the array (Proof/KernelArray.lean);
    * the arrays the region finds, read back from the host operations before it (Proof/HostPrefix.lean).
  No sum is reordered and no law that fails at an infinity is used: the precondition is never opened. The three
  frames are the generated ones (the reference's is its generated run with the result dropped); the idealization's
  ledger is empty.
-/
import proofs.«102872_j33741263077663_1_alg».proof.Defs
import proofs.«102872_j33741263077663_1_alg».proof.Proof.Gen.Kernel
import proofs.«102872_j33741263077663_1_alg».proof.Proof.Gen.Kernel.Skeleton
import proofs.«102872_j33741263077663_1_alg».proof.Proof.Gen.Kernel.Launch
import proofs.«102872_j33741263077663_1_alg».proof.Proof.Gen.Kernel.Points
import proofs.«102872_j33741263077663_1_alg».proof.Proof.Gen.Kernel.Frame
import proofs.«102872_j33741263077663_1_alg».proof.Proof.Gen.KernelIdeal
import proofs.«102872_j33741263077663_1_alg».proof.Proof.Gen.KernelIdeal.Skeleton
import proofs.«102872_j33741263077663_1_alg».proof.Proof.Gen.KernelIdeal.Launch
import proofs.«102872_j33741263077663_1_alg».proof.Proof.Gen.KernelIdeal.Points
import proofs.«102872_j33741263077663_1_alg».proof.Proof.Gen.KernelIdeal.Frame
import proofs.«102872_j33741263077663_1_alg».proof.Proof.Gen.ReferenceIdeal
import proofs.«102872_j33741263077663_1_alg».proof.Proof.Gen.Pre_finite_inputs
import proofs.«102872_j33741263077663_1_alg».proof.Proof.Gen.KernelIdeal.Value
import proofs.«102872_j33741263077663_1_alg».proof.Proof.Gen.ReferenceIdeal.Run
import proofs.«102872_j33741263077663_1_alg».proof.Proof.Gen.ReferenceIdeal.Read
import proofs.«102872_j33741263077663_1_alg».proof.Proof.RefRow
import proofs.«102872_j33741263077663_1_alg».proof.Proof.KernelArray
import proofs.«102872_j33741263077663_1_alg».proof.Proof.HostPrefix
import Idealize.ShloMosaic.Adequacy
import Idealize.ShloMosaic.Init

noncomputable section

open Idealize.ShloMosaic Idealize.ShloMosaic.TcCoe Idealize.SL.Sem

/-! ## The kernel's result array in terms of the arguments -/

namespace Cert.EdgeMlp.Kernel

open Cert.KernelIdeal Cert.KernelIdeal.Gen

/-- `outArr` in terms of the arguments: the reference's two gathered arrays and the weights as launched. -/
theorem outArr_eq (m : (ℓ : Loc nD τ sig) → Buf (Elt Ideal) ℓ) (c : Dev nD) :
    outArr m c = Cert.EdgeMlp.edgeOut (R := 800000)
      (Cert.ReferenceIdeal.Read.val_main_v14 (F := Ideal) (m ((c : Thread nD τ).loc main_arg0)) (m ((c : Thread nD τ).loc main_arg2)) (m ((c : Thread nD τ).loc main_arg3)))
      (Cert.ReferenceIdeal.Read.val_main_v29 (F := Ideal) (m ((c : Thread nD τ).loc main_arg1)) (m ((c : Thread nD τ).loc main_arg2)) (m ((c : Thread nD τ).loc main_arg3)))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (m ((c : Thread nD τ).loc main_arg15))
      (m ((c : Thread nD τ).loc main_arg16)) (m ((c : Thread nD τ).loc main_arg17)) := by
  show Cert.EdgeMlp.edgeOut (R := 800000) (V m c main_v14) (V m c main_v29) (V m c main_v30) (V m c main_arg5) (V m c main_v31) (V m c main_arg7)
    (V m c main_v32) (V m c main_arg9) (V m c main_v33) (V m c main_arg11) (V m c main_v34) (V m c main_arg13)
    (V m c main_v35) (V m c main_arg15) (V m c main_v36) (V m c main_arg17) = _
  rw [V_geo, V_desc, V_We, V_Wq, V_Wk, V_Wv, V_Wc1, V_Wc2, V_Wc3, V_main_arg5, V_main_arg7, V_main_arg9, V_main_arg11,
    V_main_arg13, V_main_arg15, V_main_arg17]

end Cert.EdgeMlp.Kernel

/-! ## The claims -/

namespace Cert.Proof

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at `edgeOut` of the gathered arrays and the weights: the kernel's by the row-wise
    reading of its body and the tiling of its blocks, the reference's by the row-wise reading of its operations; the
    arguments agree. -/
theorem algebraic : Cert.algebraic_KernelIdeal_ReferenceIdeal := by
  intro m ρ m' ρ' _ hagree
  refine ⟨fun c => Cert.EdgeMlp.Kernel.outArr m c,
    (θ_run Cert.KernelIdeal.defs _ _).mono (fun _ h c => ⟨(h c).1.trans (Cert.EdgeMlp.Kernel.final m c), (h c).2⟩)
      (Cert.KernelIdeal.Value.run_blocks m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17⟩ := hagree c
  rw [Cert.ReferenceIdeal.Read.val_main_v72_eq, a0, a1, a2, a3, a4, a5, a6, a7, a8, a9, a10, a11, a12, a13, a14, a15, a16, a17,
    Cert.EdgeMlp.Ref.result_eq]
  exact (Cert.EdgeMlp.Kernel.outArr_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
